-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1000000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S10000x64 : Shape := ⟨2, ![10000, 64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩

abbrev nBuf : Space → Nat
  | .hbm => 63
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S100000x64, .f32⟩
  | .hbm, ⟨5, _⟩ => ⟨S100000, .i32⟩
  | .hbm, ⟨6, _⟩ => ⟨S1x1000000, .i32⟩
  | .hbm, ⟨7, _⟩ => ⟨S1000000, .i32⟩
  | .hbm, ⟨8, _⟩ => ⟨S1100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S_, .f32⟩
  | .hbm, ⟨13, _⟩ => ⟨S1100000, .f32⟩
  | .hbm, ⟨14, _⟩ => ⟨S_, .f32⟩
  | .hbm, ⟨15, _⟩ => ⟨S100000, .f32⟩
  | .hbm, ⟨16, _⟩ => ⟨S1100000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1100000, .i32⟩
  | .hbm, ⟨28, _⟩ => ⟨S1100000, .i1⟩
  | .hbm, ⟨29, _⟩ => ⟨S_, .i32⟩
  | .hbm, ⟨30, _⟩ => ⟨S1100000, .i32⟩
  | .hbm, ⟨31, _⟩ => ⟨S1100000, .i32⟩
  | .hbm, ⟨32, _⟩ => ⟨S1100000, .i32⟩
  | .hbm, ⟨33, _⟩ => ⟨S1100000x1, .i32⟩
  | .hbm, ⟨34, _⟩ => ⟨S1100000, .f32⟩
  | .hbm, ⟨35, _⟩ => ⟨S_, .i32⟩
  | .hbm, ⟨36, _⟩ => ⟨S1100000, .i32⟩
  | .hbm, ⟨37, _⟩ => ⟨S1100000, .i1⟩
  | .hbm, ⟨38, _⟩ => ⟨S_, .i32⟩
  | .hbm, ⟨39, _⟩ => ⟨S1100000, .i32⟩
  | .hbm, ⟨40, _⟩ => ⟨S1100000, .i32⟩
  | .hbm, ⟨41, _⟩ => ⟨S1100000, .i32⟩
  | .hbm, ⟨42, _⟩ => ⟨S1100000x1, .i32⟩
  | .hbm, ⟨43, _⟩ => ⟨S1100000, .f32⟩
  | .hbm, ⟨44, _⟩ => ⟨S1100000, .f32⟩
  | .hbm, ⟨45, _⟩ => ⟨S1100000x1, .f32⟩
  | .hbm, ⟨46, _⟩ => ⟨S_, .i32⟩
  | .hbm, ⟨47, _⟩ => ⟨S1100000, .i32⟩
  | .hbm, ⟨48, _⟩ => ⟨S1100000, .i1⟩
  | .hbm, ⟨49, _⟩ => ⟨S_, .i32⟩
  | .hbm, ⟨50, _⟩ => ⟨S1100000, .i32⟩
  | .hbm, ⟨51, _⟩ => ⟨S1100000, .i32⟩
  | .hbm, ⟨52, _⟩ => ⟨S1100000, .i32⟩
  | .hbm, ⟨53, _⟩ => ⟨S1100000x1, .i32⟩
  | .hbm, ⟨54, _⟩ => ⟨S1100000x64, .f32⟩
  | .hbm, ⟨55, _⟩ => ⟨S1100000x64, .f32⟩
  | .hbm, ⟨56, _⟩ => ⟨S1100000x64, .f32⟩
  | .hbm, ⟨57, _⟩ => ⟨S_, .f32⟩
  | .hbm, ⟨58, _⟩ => ⟨S100000x64, .f32⟩
  | .hbm, ⟨59, _⟩ => ⟨S1100000x1, .i32⟩
  | .hbm, ⟨60, _⟩ => ⟨S100000x64, .f32⟩
  | .hbm, ⟨61, _⟩ => ⟨S1x64, .f32⟩
  | .hbm, ⟨62, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S10000x64_S64x64_S10000x64_1_0_0_1_n_n_wf : DotDims.WF S10000x64 S64x64 S10000x64 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S100000x64, .f32⟩
  | .hbm, ⟨5, _⟩ => ⟨S100000, .i32⟩
  | .hbm, ⟨6, _⟩ => ⟨S1x1000000, .i32⟩
  | .hbm, ⟨7, _⟩ => ⟨S1000000, .i32⟩
  | .hbm, ⟨8, _⟩ => ⟨S1100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S_, .f32⟩
  | .hbm, ⟨13, _⟩ => ⟨S1100000, .f32⟩
  | .hbm, ⟨14, _⟩ => ⟨S_, .f32⟩
  | .hbm, ⟨15, _⟩ => ⟨S100000, .f32⟩
  | .hbm, ⟨16, _⟩ => ⟨S1100000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1100000, .i32⟩
  | .hbm, ⟨28, _⟩ => ⟨S1100000, .i1⟩
  | .hbm, ⟨29, _⟩ => ⟨S_, .i32⟩
  | .hbm, ⟨30, _⟩ => ⟨S1100000, .i32⟩
  | .hbm, ⟨31, _⟩ => ⟨S1100000, .i32⟩
  | .hbm, ⟨32, _⟩ => ⟨S1100000, .i32⟩
  | .hbm, ⟨33, _⟩ => ⟨S1100000x1, .i32⟩
  | .hbm, ⟨34, _⟩ => ⟨S1100000, .f32⟩
  | .hbm, ⟨35, _⟩ => ⟨S_, .i32⟩
  | .hbm, ⟨36, _⟩ => ⟨S1100000, .i32⟩
  | .hbm, ⟨37, _⟩ => ⟨S1100000, .i1⟩
  | .hbm, ⟨38, _⟩ => ⟨S_, .i32⟩
  | .hbm, ⟨39, _⟩ => ⟨S1100000, .i32⟩
  | .hbm, ⟨40, _⟩ => ⟨S1100000, .i32⟩
  | .hbm, ⟨41, _⟩ => ⟨S1100000, .i32⟩
  | .hbm, ⟨42, _⟩ => ⟨S1100000x1, .i32⟩
  | .hbm, ⟨43, _⟩ => ⟨S1100000, .f32⟩
  | .hbm, ⟨44, _⟩ => ⟨S1100000, .f32⟩
  | .hbm, ⟨45, _⟩ => ⟨S1100000x1, .f32⟩
  | .hbm, ⟨46, _⟩ => ⟨S_, .i32⟩
  | .hbm, ⟨47, _⟩ => ⟨S1100000, .i32⟩
  | .hbm, ⟨48, _⟩ => ⟨S1100000, .i1⟩
  | .hbm, ⟨49, _⟩ => ⟨S_, .i32⟩
  | .hbm, ⟨50, _⟩ => ⟨S1100000, .i32⟩
  | .hbm, ⟨51, _⟩ => ⟨S1100000, .i32⟩
  | .hbm, ⟨52, _⟩ => ⟨S1100000, .i32⟩
  | .hbm, ⟨53, _⟩ => ⟨S1100000x1, .i32⟩
  | .hbm, ⟨54, _⟩ => ⟨S1100000x64, .f32⟩
  | .hbm, ⟨55, _⟩ => ⟨S1100000x64, .f32⟩
  | .hbm, ⟨56, _⟩ => ⟨S1100000x64, .f32⟩
  | .hbm, ⟨57, _⟩ => ⟨S_, .f32⟩
  | .hbm, ⟨58, _⟩ => ⟨S100000x64, .f32⟩
  | .hbm, ⟨59, _⟩ => ⟨S1100000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

class Facts : Prop extends Facts₀ where

variable [Facts]
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.Proj.lean ====
/-
  The first region: the linear transform x·W, block by block.

  The region reads x : [100000, 64] in ten row blocks of 10000 and W : [64, 64] whole, and at each block writes the product of the
  block's rows with W accumulated into a zero matrix (the change of float format before the product is the identity on the extended
  reals). Entry (p, q) of what block t writes is Σ_k x(10000·t + p, k) · W(k, q): block t of the one whole-array function
  `proj x W (r, q) = Σ_k x(r, k) · W(k, q)`. The ten blocks tile the rows, so after the region the output array is `proj x W`.
-/
import proofs.«119347_j12635793785115_1_alg».proof.Proof.Gen.KernelIdeal.Frame
import proofs.«119347_j12635793785115_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Proj

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Entry (r, q) of x·W: the sum over k of x(r, k) · W(k, q). -/
def proj (x : Vec Ideal S100000x64 .f32) (w : Vec Ideal S64x64 .f32) : Vec Ideal S100000x64 .f32 :=
  fun i => ∑ k : Fin 64, x (ix2 (i 0) k) * w (ix2 k (i 1))

/-- The body's stored value at entry (p, q) of a block: the block's row p against W's column q, summed over k. -/
theorem pay_apply (x0 : Vec Ideal S10000x64 .f32) (x1 : Vec Ideal S64x64 .f32) (p : Fin 10000) (q : Fin 64) :
    k0_pay1 x0 x1 (ix2 p q) = ∑ k : Fin 64, x0 (ix2 p k) * x1 (ix2 k q) := by
  unfold k0_pay1
  exact Cert.LibPlainMatmul.matmul_plain_apply none (truncf .bf16 x0 bitsLt_bf16_f32) (truncf .bf16 x1 bitsLt_bf16_f32) p q

/-- The block index maps over the grid: x's block moves with the output's along the rows and stays at column block 0;
    W's block is always block (0, 0); the output's column block is 0. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- x's block at point t, at (p, k), is x at the output block's row and column k. -/
theorem lhs_block (c : Dev nD) (t : Fin cfg0.N) (p : Fin 10000) (q k : Fin 64) :
    iblk0 V c 0 t (ix2 p k) = V c main_arg0 (ix2 ((((cfg0.win 2).blk t).view.emb (ix2 p q)) 0) k) := by
  obtain ⟨e0, e1, e2, e3, e4⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 10000 + 1 * p.val = win0_2.index t (0 : Fin 2) * 10000 + 1 * p.val; omega
  | ⟨1, _⟩ => show win0_0.index t (1 : Fin 2) * 64 + 1 * k.val = k.val; omega

/-- W's block at any point, at (k, q), is W at row k and the output entry's column. -/
theorem rhs_block (c : Dev nD) (t : Fin cfg0.N) (p : Fin 10000) (q k : Fin 64) :
    iblk0 V c 1 t (ix2 k q) = V c main_arg2 (ix2 k ((((cfg0.win 2).blk t).view.emb (ix2 p q)) 1)) := by
  obtain ⟨e0, e1, e2, e3, e4⟩ := idx_facts t
  show V c main_arg2 (((cfg0.win 1).blk t).view.emb (ix2 k q)) = _
  refine congrArg (V c main_arg2) (funext fun a => Fin.ext ?_)
  match a with
  | ⟨0, _⟩ => show win0_1.index t (0 : Fin 2) * 64 + 1 * k.val = k.val; omega
  | ⟨1, _⟩ => show win0_1.index t (1 : Fin 2) * 64 + 1 * q.val = win0_2.index t (1 : Fin 2) * 64 + 1 * q.val; omega

/-- What point t writes back is block t of `proj` of the arrays the region found. -/
theorem flushed_eq (c : Dev nD) (t : Fin cfg0.N) :
    (dat0 V c).flushed 2 t = ((cfg0.win 2).blk t).view.read (Elt Ideal) (proj (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  funext j
  obtain ⟨p, q, rfl⟩ : ∃ (p : Fin 10000) (q : Fin 64), j = ix2 p q := ⟨j 0, j 1, eq_ix2 j⟩
  show k0_pay1 (iblk0 V c 0 t) (iblk0 V c 1 t) (ix2 p q) = proj (V c main_arg0) (V c main_arg2) (((cfg0.win 2).blk t).view.emb (ix2 p q))
  refine (pay_apply (iblk0 V c 0 t) (iblk0 V c 1 t) p q).trans ?_
  refine Finset.sum_congr rfl fun k _ => ?_
  rw [lhs_block V c t p q k, rhs_block V c t p q k]

/-- An index lies in point t's block iff each coordinate lies in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Every row block 0 … 9 is some point's. -/
theorem idx_onto : ∀ (q0 : Fin 10), ∃ t : Fin cfg0.N, win0_2.index t = ![q0.val, 0] :=
  (by decide +kernel : ∀ (q0 : Fin 10), ∃ t : Fin grid0.N, win0_2.index t = ![q0.val, 0])

/-- Row r lies in the block of the point whose block index is r / 10000: the blocks cover the array. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the output array is x·W of the arrays the region found. -/
theorem final (c : Dev nD) : (dat0 V c).arrAt 2 cfg0.N = proj (V c main_arg0) (V c main_arg2) :=
  (dat0 V c).arrAt_eq_of_cover 2 (proj (V c main_arg0) (V c main_arg2)) (fun t _ => flushed_eq V c t) cover

end Cert.KernelIdeal.Proj
end
-- ==== Proof.BiasRelu.lean ====
/-
  The second region: bias and rectifier, block by block.

  The region reads a [100000, 64] array a in ten row blocks of 10000 and a [1, 64] bias row in one block, and at each block
  writes max(a + bias, 0), the bias row repeated down the rows. Entry (p, q) of what block t writes is
  max(a(10000·t + p, q) + bias(0, q), 0): that is block t of the one whole-array function
  `biasRelu a bias (r, q) = max(a(r, q) + bias(0, q), 0)`. The ten blocks tile the rows (row r lies in block r / 10000), so after the
  region the output array is `biasRelu` of the two arrays the region found.
-/
import proofs.«119347_j12635793785115_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Entry (r, q): the array's entry plus the bias row's entry of that column, clamped below at zero. -/
def biasRelu (a : Vec Ideal S100000x64 .f32) (bb : Vec Ideal S1x64 .f32) : Vec Ideal S100000x64 .f32 :=
  fun i => max (a i + bb (ix2 0 (i 1))) (Ideal.ofBits .f32 0x00000000#32)

/-- The body's stored value at entry (p, q) of a block: the loaded block's entry plus the bias row at column q, against zero. -/
theorem pay_apply (x0 : Vec Ideal S10000x64 .f32) (x1 : Vec Ideal S1x64 .f32) (p : Fin 10000) (q : Fin 64) :
    k1_pay1 x0 x1 (ix2 p q) = max (x0 (ix2 p q) + x1 (ix2 0 q)) (Ideal.ofBits .f32 0x00000000#32) := by
  unfold k1_pay1
  rw [maximumf_apply, addf_apply, broadcast_apply, shapeCast_self, shapeCast_self,
    broadcastTo_apply x1 broadcasts_S1x64_S10000x64 (ix2 p q) (ix2 0 q) (fun a => by
      match a with
      | ⟨0, _⟩ => rfl
      | ⟨1, _⟩ => rfl)]
  rfl

/-- The block index maps over the grid: the rows operand moves with the output; the bias row's block is always block (0, 0);
    the output's block index is (t, 0). -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- The rows operand's block at point t is the array read at the output block's rows. -/
theorem rows_block (c : Dev nD) (t : Fin cfg1.N) (p : Fin 10000) (q : Fin 64) :
    iblk1 V c 0 t (ix2 p q) = V c main_v43 (((cfg1.win 2).blk t).view.emb (ix2 p q)) := by
  obtain ⟨e0, e1, e2, e3, e4, e5⟩ := idx_facts t
  show V c main_v43 (((cfg1.win 0).blk t).view.emb (ix2 p q)) = V c main_v43 (((cfg1.win 2).blk t).view.emb (ix2 p q))
  refine congrArg (V c main_v43) (funext fun a => Fin.ext ?_)
  match a with
  | ⟨0, _⟩ => show win1_0.index t (0 : Fin 2) * 10000 + 1 * p.val = win1_2.index t (0 : Fin 2) * 10000 + 1 * p.val; omega
  | ⟨1, _⟩ => show win1_0.index t (1 : Fin 2) * 64 + 1 * q.val = win1_2.index t (1 : Fin 2) * 64 + 1 * q.val; omega

/-- The bias operand's block at any point is the bias row itself, read at the output entry's column. -/
theorem bias_block (c : Dev nD) (t : Fin cfg1.N) (p : Fin 10000) (q : Fin 64) :
    iblk1 V c 1 t (ix2 0 q) = V c main_v44 (ix2 0 ((((cfg1.win 2).blk t).view.emb (ix2 p q)) 1)) := by
  obtain ⟨e0, e1, e2, e3, e4, e5⟩ := idx_facts t
  show V c main_v44 (((cfg1.win 1).blk t).view.emb (ix2 0 q)) = _
  refine congrArg (V c main_v44) (funext fun a => Fin.ext ?_)
  match a with
  | ⟨0, _⟩ => show win1_1.index t (0 : Fin 2) * 1 + 1 * 0 = 0; omega
  | ⟨1, _⟩ => show win1_1.index t (1 : Fin 2) * 64 + 1 * q.val = win1_2.index t (1 : Fin 2) * 64 + 1 * q.val; omega

/-- What point t writes back is block t of `biasRelu` of the arrays the region found. -/
theorem flushed_eq (c : Dev nD) (t : Fin cfg1.N) :
    (dat1 V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  show k1_pay1 (iblk1 V c 0 t) (iblk1 V c 1 t) (ix2 p q) = biasRelu (V c main_v43) (V c main_v44) (((cfg1.win 2).blk t).view.emb (ix2 p q))
  refine (pay_apply (iblk1 V c 0 t) (iblk1 V c 1 t) p q).trans ?_
  rw [rows_block V c t p q, bias_block V c t p q]
  rfl

/-- An index lies in point t's block iff each coordinate lies in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Every row block 0 … 9 is some point's. -/
theorem idx_onto : ∀ (q0 : Fin 10), ∃ t : Fin cfg1.N, win1_2.index t = ![q0.val, 0] :=
  (by decide +kernel : ∀ (q0 : Fin 10), ∃ t : Fin grid1.N, win1_2.index t = ![q0.val, 0])

/-- Row r lies in the block of the point whose block index is r / 10000: the blocks cover the array. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region the output array is `biasRelu` of the two arrays the region found. -/
theorem final (c : Dev nD) : (dat1 V c).arrAt 2 cfg1.N = biasRelu (V c main_v43) (V c main_v44) :=
  (dat1 V c).arrAt_eq_of_cover 2 (biasRelu (V c main_v43) (V c main_v44)) (fun t _ => flushed_eq V c t) cover

end Cert.KernelIdeal.BiasRelu
end
-- ==== Proof.HostMid.lean ====
/-
  Between the two regions: the aggregation over the edges, as one function of the projected features and the edge list.

  `aggK h e` is the composition of the host operations between the regions: the source and target lists are the two rows of e
  each followed by 0 … 99999 (the self loops); d = the number of edges into each node, summed by scatter-add of ones;
  s = d^(-1/2) where d > 0 and 0 elsewhere; each edge's weight is s(source) · s(target), the indices wrapped once when negative;
  the result is the scatter-add over the edges, at the target, of weight · h(source, ·).
  The array the second region finds for its first operand is `aggK` of what the first region left and of the edge list as launched;
  its second operand is the bias read as a [1, 64] row.
-/
import proofs.«119347_j12635793785115_1_alg».proof.Proof.Gen.KernelIdeal.Frame
import Idealize.ShloMosaic.Lib.StableHlo.Run

set_option maxRecDepth 16384

noncomputable section

namespace Cert.KernelIdeal.HostMid

open Cert.KernelIdeal Cert.KernelIdeal.Gen
open Idealize.ShloMosaic Idealize.ShloMosaic.TcCoe Idealize.ShloMosaic.StableHlo
open Idealize.SL Idealize.SL.Sem

variable {F : FTy → Type} [FloatOps F]

set_option maxRecDepth 8192 in
/-- The aggregation over the edges with self loops, symmetric degree normalisation: a function of the features h and the edge list e. -/
def aggK (h : (⟨S100000x64, .f32⟩ : BufTy).Contents (Elt F)) (e : (⟨S2x1000000, .i32⟩ : BufTy).Contents (Elt F)) :
    (⟨S100000x64, .f32⟩ : BufTy).Contents (Elt F) :=
  Host.scatterAdd scatter_S100000x64_S1100000x1_S1100000x64_1_0_0_1 (broadcastInDim S100000x64 ![] bcast_S_S100000x64 (constant S_ .f32 0x00000000#32)) (broadcastInDim S1100000x1 ![0] bcast_S1100000_S1100000x1_0 (concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0)) (mulf (broadcastInDim S1100000x64 ![0, 1] bcast_S1100000x1_S1100000x64_0_1 (broadcastInDim S1100000x1 ![0] bcast_S1100000_S1100000x1_0 (mulf (Host.gather gather_S100000_S1100000x1_S1100000_n_0_n_n_0_1_1 (select (cmpf (F := F) .ogt (Host.scatterAdd scatter_S100000_S1100000x1_S1100000_n_0_0_1 (broadcastInDim S100000 ![] bcast_S_S100000 (constant S_ .f32 0x00000000#32)) (broadcastInDim S1100000x1 ![0] bcast_S1100000_S1100000x1_0 (concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0)) (broadcastInDim S1100000 ![] bcast_S_S1100000 (constant S_ .f32 0x3F800000#32))) (broadcastInDim S100000 ![] bcast_S_S100000 (constant S_ .f32 0x00000000#32))) (Host.rsqrt (Host.scatterAdd scatter_S100000_S1100000x1_S1100000_n_0_0_1 (broadcastInDim S100000 ![] bcast_S_S100000 (constant S_ .f32 0x00000000#32)) (broadcastInDim S1100000x1 ![0] bcast_S1100000_S1100000x1_0 (concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0)) (broadcastInDim S1100000 ![] bcast_S_S1100000 (constant S_ .f32 0x3F800000#32)))) (broadcastInDim S100000 ![] bcast_S_S100000 (id (constant S_ .f32 0x00000000#32)))) (broadcastInDim S1100000x1 ![0] bcast_S1100000_S1100000x1_0 (select (cmpi .slt (concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0) (broadcastInDim S1100000 ![] bcast_S_S1100000 (constantI S_ 32 0#32))) (addi (concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0) (broadcastInDim S1100000 ![] bcast_S_S1100000 (constantI S_ 32 100000#32))) (concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0)))) (Host.gather gather_S100000_S1100000x1_S1100000_n_0_n_n_0_1_1 (select (cmpf (F := F) .ogt (Host.scatterAdd scatter_S100000_S1100000x1_S1100000_n_0_0_1 (broadcastInDim S100000 ![] bcast_S_S100000 (constant S_ .f32 0x00000000#32)) (broadcastInDim S1100000x1 ![0] bcast_S1100000_S1100000x1_0 (concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0)) (broadcastInDim S1100000 ![] bcast_S_S1100000 (constant S_ .f32 0x3F800000#32))) (broadcastInDim S100000 ![] bcast_S_S100000 (constant S_ .f32 0x00000000#32))) (Host.rsqrt (Host.scatterAdd scatter_S100000_S1100000x1_S1100000_n_0_0_1 (broadcastInDim S100000 ![] bcast_S_S100000 (constant S_ .f32 0x00000000#32)) (broadcastInDim S1100000x1 ![0] bcast_S1100000_S1100000x1_0 (concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0)) (broadcastInDim S1100000 ![] bcast_S_S1100000 (constant S_ .f32 0x3F800000#32)))) (broadcastInDim S100000 ![] bcast_S_S100000 (id (constant S_ .f32 0x00000000#32)))) (broadcastInDim S1100000x1 ![0] bcast_S1100000_S1100000x1_0 (select (cmpi .slt (concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0) (broadcastInDim S1100000 ![] bcast_S_S1100000 (constantI S_ 32 0#32))) (addi (concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0) (broadcastInDim S1100000 ![] bcast_S_S1100000 (constantI S_ 32 100000#32))) (concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0))))))) (Host.gather gather_S100000x64_S1100000x1_S1100000x64_1_0_n_n_0_1_164 h (broadcastInDim S1100000x1 ![0] bcast_S1100000_S1100000x1_0 (select (cmpi .slt (concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0) (broadcastInDim S1100000 ![] bcast_S_S1100000 (constantI S_ 32 0#32))) (addi (concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0) (broadcastInDim S1100000 ![] bcast_S_S1100000 (constantI S_ 32 100000#32))) (concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0)))))

variable (m : (ℓ : Loc nD τ sig) → Buf (Elt F) ℓ) (ρ : Dev nD → PrngReg)

set_option maxHeartbeats 4000000 in
/-- The second region's first operand: the aggregation of what the first region left, over the edge list as it stands. -/
theorem v43_eq (c : Dev nD) : W4 m ρ c (Proc.devRef .tc main_v43)
    = aggK (W1 m ρ c (Proc.devRef .tc main_v0)) (W1 m ρ c (Proc.devRef .tc main_arg1)) := by
  show StableHlo.after hostOps1_2 (StableHlo.after hostOps1_1 (StableHlo.after hostOps1 (W1 m ρ c))) (Proc.devRef .tc main_v43) = _
  after_results_simp
  rfl

/-- The second region's second operand: the bias as a [1, 64] row. -/
theorem v44_eq (c : Dev nD) : W4 m ρ c (Proc.devRef .tc main_v44)
    = shapeCast S1x64 (W1 m ρ c (Proc.devRef .tc main_arg3)) shapeCasts_S64_S1x64 := by
  show StableHlo.after hostOps1_2 (StableHlo.after hostOps1_1 (StableHlo.after hostOps1 (W1 m ρ c))) (Proc.devRef .tc main_v44) = _
  after_results_simp
  rfl

end Cert.KernelIdeal.HostMid
end
-- ==== Proof.RefValue.lean ====
/-
  The reference's result as the same pieces: `agg h e`, the aggregation over the edges as a function of the projected features h
  and the edge list e (the same composition of host operations as the kernel's), and `biasAct a b = max(a + b, 0)` with b repeated
  down the rows. The reference's result term is `biasAct (agg (x·W) e) b`, x·W the host's product. At entry (p, q):
  `biasAct a b (p, q) = max(a(p, q) + b(q), 0)` and `(x·W)(p, q) = Σ_k x(p, k) · W(k, q)`.
-/
import proofs.«119347_j12635793785115_1_alg».proof.Proof.RefRun
import proofs.«119347_j12635793785115_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.RunP
open Idealize.ShloMosaic Idealize.ShloMosaic.TcCoe Idealize.ShloMosaic.StableHlo Idealize.ShloMosaic.ValueIdx
open Idealize.SL Idealize.SL.Sem

section AnyF
variable {F : FTy → Type} [FloatOps F]

set_option maxRecDepth 8192 in
/-- The aggregation over the edges with self loops, symmetric degree normalisation: a function of the features h and the edge list e. -/
def agg (h : (⟨S100000x64, .f32⟩ : BufTy).Contents (Elt F)) (e : (⟨S2x1000000, .i32⟩ : BufTy).Contents (Elt F)) :
    (⟨S100000x64, .f32⟩ : BufTy).Contents (Elt F) :=
  Host.scatterAdd scatter_S100000x64_S1100000x1_S1100000x64_1_0_0_1 (broadcastInDim S100000x64 ![] bcast_S_S100000x64 (constant S_ .f32 0x00000000#32)) (broadcastInDim S1100000x1 ![0] bcast_S1100000_S1100000x1_0 (concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0)) (mulf (broadcastInDim S1100000x64 ![0, 1] bcast_S1100000x1_S1100000x64_0_1 (broadcastInDim S1100000x1 ![0] bcast_S1100000_S1100000x1_0 (mulf (Host.gather gather_S100000_S1100000x1_S1100000_n_0_n_n_0_1_1 (select (cmpf (F := F) .ogt (Host.scatterAdd scatter_S100000_S1100000x1_S1100000_n_0_0_1 (broadcastInDim S100000 ![] bcast_S_S100000 (constant S_ .f32 0x00000000#32)) (broadcastInDim S1100000x1 ![0] bcast_S1100000_S1100000x1_0 (concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0)) (broadcastInDim S1100000 ![] bcast_S_S1100000 (constant S_ .f32 0x3F800000#32))) (broadcastInDim S100000 ![] bcast_S_S100000 (constant S_ .f32 0x00000000#32))) (Host.rsqrt (Host.scatterAdd scatter_S100000_S1100000x1_S1100000_n_0_0_1 (broadcastInDim S100000 ![] bcast_S_S100000 (constant S_ .f32 0x00000000#32)) (broadcastInDim S1100000x1 ![0] bcast_S1100000_S1100000x1_0 (concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0)) (broadcastInDim S1100000 ![] bcast_S_S1100000 (constant S_ .f32 0x3F800000#32)))) (broadcastInDim S100000 ![] bcast_S_S100000 (id (constant S_ .f32 0x00000000#32)))) (broadcastInDim S1100000x1 ![0] bcast_S1100000_S1100000x1_0 (select (cmpi .slt (concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0) (broadcastInDim S1100000 ![] bcast_S_S1100000 (constantI S_ 32 0#32))) (addi (concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0) (broadcastInDim S1100000 ![] bcast_S_S1100000 (constantI S_ 32 100000#32))) (concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0)))) (Host.gather gather_S100000_S1100000x1_S1100000_n_0_n_n_0_1_1 (select (cmpf (F := F) .ogt (Host.scatterAdd scatter_S100000_S1100000x1_S1100000_n_0_0_1 (broadcastInDim S100000 ![] bcast_S_S100000 (constant S_ .f32 0x00000000#32)) (broadcastInDim S1100000x1 ![0] bcast_S1100000_S1100000x1_0 (concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0)) (broadcastInDim S1100000 ![] bcast_S_S1100000 (constant S_ .f32 0x3F800000#32))) (broadcastInDim S100000 ![] bcast_S_S100000 (constant S_ .f32 0x00000000#32))) (Host.rsqrt (Host.scatterAdd scatter_S100000_S1100000x1_S1100000_n_0_0_1 (broadcastInDim S100000 ![] bcast_S_S100000 (constant S_ .f32 0x00000000#32)) (broadcastInDim S1100000x1 ![0] bcast_S1100000_S1100000x1_0 (concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0)) (broadcastInDim S1100000 ![] bcast_S_S1100000 (constant S_ .f32 0x3F800000#32)))) (broadcastInDim S100000 ![] bcast_S_S100000 (id (constant S_ .f32 0x00000000#32)))) (broadcastInDim S1100000x1 ![0] bcast_S1100000_S1100000x1_0 (select (cmpi .slt (concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0) (broadcastInDim S1100000 ![] bcast_S_S1100000 (constantI S_ 32 0#32))) (addi (concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0) (broadcastInDim S1100000 ![] bcast_S_S1100000 (constantI S_ 32 100000#32))) (concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0))))))) (Host.gather gather_S100000x64_S1100000x1_S1100000x64_1_0_n_n_0_1_164 h (broadcastInDim S1100000x1 ![0] bcast_S1100000_S1100000x1_0 (select (cmpi .slt (concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0) (broadcastInDim S1100000 ![] bcast_S_S1100000 (constantI S_ 32 0#32))) (addi (concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0) (broadcastInDim S1100000 ![] bcast_S_S1100000 (constantI S_ 32 100000#32))) (concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0)))))

/-- a plus the bias repeated down the rows, clamped below at zero. -/
def biasAct (a : (⟨S100000x64, .f32⟩ : BufTy).Contents (Elt F)) (b : (⟨S64, .f32⟩ : BufTy).Contents (Elt F)) :
    (⟨S100000x64, .f32⟩ : BufTy).Contents (Elt F) :=
  maximumf (addf a (broadcastInDim S100000x64 ![0, 1] bcast_S1x64_S100000x64_0_1 (broadcastInDim S1x64 ![1] bcast_S64_S1x64_1 b))) (broadcastInDim S100000x64 ![] bcast_S_S100000x64 (constant S_ .f32 0x00000000#32))

set_option maxRecDepth 8192 in
/-- The reference's result term is the bias and rectifier of the aggregation of the host's product x·W. -/
theorem res_eq (m : (ℓ : Loc nD τ sig) → Buf (Elt F) ℓ) (c : Dev nD) :
    res_main_v47 (F := F) m c
      = biasAct (agg (Host.dotGeneral dot_S100000x64_S64x64_S100000x64_1_0_0_1_n_n none (m ((c.tc : Thread nD τ).loc main_arg0)) (m ((c.tc : Thread nD τ).loc main_arg2))) (m ((c.tc : Thread nD τ).loc main_arg1)))
          (m ((c.tc : Thread nD τ).loc main_arg3)) := rfl

end AnyF

/-- At entry (p, q): a(p, q) + b(q), against zero. -/
theorem biasAct_apply (a : Vec Ideal S100000x64 .f32) (b : Vec Ideal S64 .f32) (p : Fin 100000) (q : Fin 64) :
    biasAct (F := Ideal) a b (ix2 p q) = max (a (ix2 p q) + b (ix1 q)) (Ideal.ofBits .f32 0x00000000#32) := by
  have h1 : broadcastInDim S100000x64 ![0, 1] bcast_S1x64_S100000x64_0_1 (broadcastInDim S1x64 ![1] bcast_S64_S1x64_1 b) (ix2 p q) = b (ix1 q) :=
    (broadcastInDim_apply ![0, 1] bcast_S1x64_S100000x64_0_1 (broadcastInDim S1x64 ![1] bcast_S64_S1x64_1 b) (ix2 p q) (ix2 0 q) (fun a => by
      match a with
      | ⟨0, _⟩ => rfl
      | ⟨1, _⟩ => rfl)).trans
    (broadcastInDim_apply ![1] bcast_S64_S1x64_1 b (ix2 0 q) (ix1 q) (fun a => by
      match a with
      | ⟨0, _⟩ => rfl))
  show max (a (ix2 p q) + broadcastInDim S100000x64 ![0, 1] bcast_S1x64_S100000x64_0_1 (broadcastInDim S1x64 ![1] bcast_S64_S1x64_1 b) (ix2 p q))
      (broadcastInDim S100000x64 ![] bcast_S_S100000x64 (constant (F := Ideal) S_ .f32 0x00000000#32) (ix2 p q)) = _
  rw [h1]
  rfl

/-- The host's product at entry (p, q): the sum over k of x(p, k) · W(k, q). -/
theorem dot_apply (x : Vec Ideal S100000x64 .f32) (w : Vec Ideal S64x64 .f32) (p : Fin 100000) (q : Fin 64) :
    Host.dotGeneral (F := Ideal) (φ₁ := .f32) (φ₂ := .f32) dot_S100000x64_S64x64_S100000x64_1_0_0_1_n_n none x w (ix2 p q) = ∑ k : Fin 64, x (ix2 p k) * w (ix2 k q) :=
  Cert.LibPlainMatmul.dotGeneral_plain_apply none x w p q

end Cert.ReferenceIdeal.RefValue
end
-- ==== Proof.lean ====
/-
  Graph convolution with self loops and symmetric degree normalisation, a bias and a rectifier, over the extended reals:
  out = max(A·(x·W) + b, 0), where (A·h)(i, ·) = Σ over edges (j → i), self loops included, of d(j)^(-1/2) · d(i)^(-1/2) · h(j, ·)
  and d counts the edges into a node.

  The kernel computes h = x·W in row blocks of 10000 (ten blocks tile the 100000 rows exactly), each block the product of the
  block's rows by the whole of W accumulated into a zero matrix; the change of float format before the product is the identity on
  the extended reals. Entry (r, j) of a block's product is Σ_k x(r, k)·W(k, j), the same sum the host's product of the whole
  arrays has at that entry, so the ten written-back blocks assemble x·W. The aggregation A·h is then the same sequence of
  host operations in both programs, applied to equal arrays. Last, the kernel adds the bias row and takes the maximum with zero
  block by block, which at entry (r, j) is max((A·h)(r, j) + b(j), 0), the reference's result at that entry.

  No law used needs finiteness: the two sides are the same term entry by entry once the product is read as its sum.
-/
import proofs.«119347_j12635793785115_1_alg».proof.Defs
import proofs.«119347_j12635793785115_1_alg».proof.Proof.Gen.Kernel
import proofs.«119347_j12635793785115_1_alg».proof.Proof.Gen.Kernel.Skeleton
import proofs.«119347_j12635793785115_1_alg».proof.Proof.Gen.Kernel.Launch
import proofs.«119347_j12635793785115_1_alg».proof.Proof.Gen.Kernel.Points
import proofs.«119347_j12635793785115_1_alg».proof.Proof.Gen.Kernel.Frame
import proofs.«119347_j12635793785115_1_alg».proof.Proof.Gen.KernelIdeal
import proofs.«119347_j12635793785115_1_alg».proof.Proof.Gen.KernelIdeal.Skeleton
import proofs.«119347_j12635793785115_1_alg».proof.Proof.Gen.KernelIdeal.Launch
import proofs.«119347_j12635793785115_1_alg».proof.Proof.Gen.KernelIdeal.Points
import proofs.«119347_j12635793785115_1_alg».proof.Proof.Gen.KernelIdeal.Frame
import proofs.«119347_j12635793785115_1_alg».proof.Proof.Gen.ReferenceIdeal
import proofs.«119347_j12635793785115_1_alg».proof.Proof.Gen.Pre_finite_inputs
import proofs.«119347_j12635793785115_1_alg».proof.Proof.KernelRun
import proofs.«119347_j12635793785115_1_alg».proof.Proof.Proj
import proofs.«119347_j12635793785115_1_alg».proof.Proof.BiasRelu
import proofs.«119347_j12635793785115_1_alg».proof.Proof.HostMid
import proofs.«119347_j12635793785115_1_alg».proof.Proof.RefRun
import proofs.«119347_j12635793785115_1_alg».proof.Proof.RefValue
import Idealize.ShloMosaic.Lib.ValueLayout
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The kernel's result array -/

section KernelValue

open Cert.KernelIdeal Cert.KernelIdeal.Gen

variable (m : (ℓ : Loc nD τ sig) → Buf (Elt Ideal) ℓ) (ρ : Dev nD → PrngReg)

/-- After the first region the projected features hold x·W: the ten row blocks cover the array. -/
theorem projected (c : Dev nD) :
    W1 m ρ c (Proc.devRef .tc main_v0)
      = Cert.KernelIdeal.Proj.proj (m ((c : Thread nD τ).loc main_arg0)) (m ((c : Thread nD τ).loc main_arg2)) :=
  (W1_arr m ρ c 2).trans (Cert.KernelIdeal.Proj.final (V0 m ρ) c)

/-- The edge list and the bias reach the host operations between the regions as launched. -/
theorem edges_kept (c : Dev nD) : W1 m ρ c (Proc.devRef .tc main_arg1) = m ((c : Thread nD τ).loc main_arg1) :=
  (W1_of_ne m ρ c main_arg1 (by decide)).trans rfl
theorem bias_kept (c : Dev nD) : W1 m ρ c (Proc.devRef .tc main_arg3) = m ((c : Thread nD τ).loc main_arg3) :=
  (W1_of_ne m ρ c main_arg3 (by decide)).trans rfl

/-- The kernel's result: the aggregation of x·W over the edges, plus the bias row, clamped below at zero. -/
theorem kernel_result (c : Dev nD) :
    W5 m ρ c (Proc.devRef .tc main_v45)
      = Cert.KernelIdeal.BiasRelu.biasRelu
          (Cert.KernelIdeal.HostMid.aggK
            (Cert.KernelIdeal.Proj.proj (m ((c : Thread nD τ).loc main_arg0)) (m ((c : Thread nD τ).loc main_arg2)))
            (m ((c : Thread nD τ).loc main_arg1)))
          (shapeCast S1x64 (m ((c : Thread nD τ).loc main_arg3)) shapeCasts_S64_S1x64) := by
  refine (W5_arr m ρ c 2).trans ((Cert.KernelIdeal.BiasRelu.final (V4 m ρ) c).trans ?_)
  show Cert.KernelIdeal.BiasRelu.biasRelu (W4 m ρ c (Proc.devRef .tc main_v43)) (W4 m ρ c (Proc.devRef .tc main_v44)) = _
  rw [Cert.KernelIdeal.HostMid.v43_eq m ρ c, Cert.KernelIdeal.HostMid.v44_eq m ρ c, projected m ρ c, edges_kept m ρ c, bias_kept m ρ c]

end KernelValue

/-! ## The two sides are one function of the arguments -/

/-- The aggregation is the same sequence of host operations in both programs. -/
theorem agg_same {F : FTy → Type} [FloatOps F]
    (h : (⟨Cert.KernelIdeal.S100000x64, .f32⟩ : BufTy).Contents (Elt F)) (e : (⟨Cert.KernelIdeal.S2x1000000, .i32⟩ : BufTy).Contents (Elt F)) :
    Cert.KernelIdeal.HostMid.aggK (F := F) h e = Cert.ReferenceIdeal.RefValue.agg (F := F) h e := rfl

/-- Entry by entry, the kernel's result is the reference's: the product read as its sum on both sides, the same aggregation,
    the bias read at the entry's column. -/
theorem bridge (x : Vec Ideal Cert.KernelIdeal.S100000x64 .f32) (e : (⟨Cert.KernelIdeal.S2x1000000, .i32⟩ : BufTy).Contents (Elt Ideal))
    (w : Vec Ideal Cert.KernelIdeal.S64x64 .f32) (b : Vec Ideal Cert.KernelIdeal.S64 .f32) :
    Cert.ReferenceIdeal.RefValue.biasAct (F := Ideal)
        (Cert.ReferenceIdeal.RefValue.agg (F := Ideal)
          (Host.dotGeneral (F := Ideal) (φ₁ := .f32) (φ₂ := .f32) Cert.ReferenceIdeal.dot_S100000x64_S64x64_S100000x64_1_0_0_1_n_n none x w) e) b
      = Cert.KernelIdeal.BiasRelu.biasRelu (Cert.KernelIdeal.HostMid.aggK (F := Ideal) (Cert.KernelIdeal.Proj.proj x w) e)
          (shapeCast Cert.KernelIdeal.S1x64 b Cert.KernelIdeal.Facts₀.shapeCasts_S64_S1x64) := by
  have hdot : Host.dotGeneral (F := Ideal) (φ₁ := .f32) (φ₂ := .f32) Cert.ReferenceIdeal.dot_S100000x64_S64x64_S100000x64_1_0_0_1_n_n none x w = Cert.KernelIdeal.Proj.proj x w :=
    funext fun i => by
      obtain ⟨p, q, rfl⟩ : ∃ (p : Fin 100000) (q : Fin 64), i = ix2 p q := ⟨i 0, i 1, eq_ix2 i⟩
      exact Cert.ReferenceIdeal.RefValue.dot_apply x w p q
  rw [hdot, ← agg_same]
  funext i
  obtain ⟨p, q, rfl⟩ : ∃ (p : Fin 100000) (q : Fin 64), i = ix2 p q := ⟨i 0, i 1, eq_ix2 i⟩
  rw [Cert.ReferenceIdeal.RefValue.biasAct_apply]
  show _ = max (Cert.KernelIdeal.HostMid.aggK (F := Ideal) (Cert.KernelIdeal.Proj.proj x w) e (ix2 p q)
      + shapeCast Cert.KernelIdeal.S1x64 b Cert.KernelIdeal.Facts₀.shapeCasts_S64_S1x64 (ix2 0 q)) (Ideal.ofBits .f32 0x00000000#32)
  rw [shapeCast_a_1a_apply b Cert.KernelIdeal.Facts₀.shapeCasts_S64_S1x64 0 q]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

theorem algebraic : Cert.algebraic_KernelIdeal_ReferenceIdeal := by
  intro m ρ m' ρ' _ hagree
  refine ⟨fun c => Cert.KernelIdeal.Gen.W5 m ρ c (Proc.devRef .tc Cert.KernelIdeal.main_v45),
    Cert.KernelIdeal.RunVal.run_val (F := Ideal) m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.RefValue.res_eq, (hagree c).1, (hagree c).2.1, (hagree c).2.2.1, (hagree c).2.2.2]
  exact (bridge _ _ _ _).trans (kernel_result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
